-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg4 : FVec F S1024x2048 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x1024x1024 .f32) (main_arg1 : FVec F S8x1024x1024 .f32) (main_arg2 : FVec F S1024x1024 .f32) (main_arg3 : FVec F S1024 .f32) (main_arg4 : FVec F S1024x2048 .f32) (main_arg5 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x1024x1024 : Shape := ⟨3, ![8, 1024, 1024]⟩
abbrev S1024x1024 : Shape := ⟨2, ![1024, 1024]⟩
abbrev S1024 : Shape := ⟨1, ![1024]⟩
abbrev S1024x2048 : Shape := ⟨2, ![1024, 2048]⟩
abbrev S1x512x1024 : Shape := ⟨3, ![1, 512, 1024]⟩
abbrev S1x1024x1024 : Shape := ⟨3, ![1, 1024, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S8x1024x1024, .bf16⟩
  | .hbm, ⟨12, _⟩ => ⟨S8x1024x1024, .f32⟩
  | .hbm, ⟨13, _⟩ => ⟨S8x1024x1024, .f32⟩
  | .hbm, ⟨14, _⟩ => ⟨S8x1024x1024, .bf16⟩
  | .hbm, ⟨15, _⟩ => ⟨S8x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024x1024, .bf16⟩
  | .local _ .vmem, ⟨10, _⟩ => ⟨S1024, .f32⟩
  | .local _ .vmem, ⟨11, _⟩ => ⟨S1x512x1024, .f32⟩
  | .local _ .vmem, ⟨12, _⟩ => ⟨S1x512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  slices_S1024x2048_S1024x1024_0_0 : S1024x2048.Slices ![0, 0] S1024x1024
  slices_S1024x2048_S1024x1024_0_1024 : S1024x2048.Slices ![0, 1024] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x1024x1024.size a
  hwx0_0 : ∀ i : grid0.Coords, EltTy.bits .f32 = 32 ∨ (Rect.block (s := S8x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .bf16 = 32 ∨ (Rect.block (s := S8x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .bf16 = 32 ∨ (Rect.block (s := S8x1024x1024) S1x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S8x1024x1024.size a
  hwx0_8 : ∀ i : grid0.Coords, EltTy.bits .f32 = 32 ∨ (Rect.block (s := S8x1024x1024) S1x512x1024.size (cc0_transform_8 i) (hinb0_8 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S1024x1024 : Shape := ⟨2, ![1024, 1024]⟩
abbrev S1024 : Shape := ⟨1, ![1024]⟩
abbrev S1024x2048 : Shape := ⟨2, ![1024, 2048]⟩
abbrev S1x1x1024 : Shape := ⟨3, ![1, 1, 1024]⟩
abbrev S_ : Shape := ⟨0, ![]⟩
abbrev S8x1024 : Shape := ⟨2, ![8, 1024]⟩
abbrev S8x1024x1 : Shape := ⟨3, ![8, 1024, 1]⟩
abbrev S8x1024x2048 : Shape := ⟨3, ![8, 1024, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S8x1024x1024, .f32⟩
  | .hbm, ⟨7, _⟩ => ⟨S1x1x1024, .f32⟩
  | .hbm, ⟨8, _⟩ => ⟨S8x1024x1024, .f32⟩
  | .hbm, ⟨9, _⟩ => ⟨S8x1024x1024, .f32⟩
  | .hbm, ⟨10, _⟩ => ⟨S8x1024x1024, .f32⟩
  | .hbm, ⟨11, _⟩ => ⟨S_, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024x1, .f32⟩
  | .hbm, ⟨17, _⟩ => ⟨S8x1024x1024, .f32⟩
  | .hbm, ⟨18, _⟩ => ⟨S8x1024x1024, .f32⟩
  | .hbm, ⟨19, _⟩ => ⟨S8x1024x1024, .f32⟩
  | .hbm, ⟨20, _⟩ => ⟨S_, .f32⟩
  | .hbm, ⟨21, _⟩ => ⟨S8x1024, .f32⟩
  | .hbm, ⟨22, _⟩ => ⟨S8x1024x1, .f32⟩
  | .hbm, ⟨23, _⟩ => ⟨S8x1024x1024, .f32⟩
  | .hbm, ⟨24, _⟩ => ⟨S8x1024x1024, .f32⟩
  | .hbm, ⟨25, _⟩ => ⟨S8x1024x1024, .f32⟩
  | .hbm, ⟨26, _⟩ => ⟨S8x1024x2048, .f32⟩
  | .hbm, ⟨27, _⟩ => ⟨S8x1024x1024, .f32⟩
  | .hbm, ⟨28, _⟩ => ⟨S1x1x1024, .f32⟩
  | .hbm, ⟨29, _⟩ => ⟨S8x1024x1024, .f32⟩
  | .hbm, ⟨30, _⟩ => ⟨S8x1024x1024, .f32⟩
  | .hbm, ⟨31, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  concatenates_S8x1024x1024_S8x1024x1024_S8x1024x2048_d2 : Shape.Concatenates [S8x1024x1024, S8x1024x1024] S8x1024x2048 2
  dot_S8x1024x1024_S1024x1024_S8x1024x1024_2_1_01_0_n_n_wf : DotDims.WF S8x1024x1024 S1024x1024 S8x1024x1024 [2] [1] [0, 1] [0] [] []
  dot_S8x1024x1024_S8x1024x1024_S8x1024x1024_2_2_1_1_0_0_wf : DotDims.WF S8x1024x1024 S8x1024x1024 S8x1024x1024 [2] [2] [1] [1] [0] [0]
  dot_S8x1024x1024_S8x1024x1024_S8x1024x1024_2_1_1_2_0_0_wf : DotDims.WF S8x1024x1024 S8x1024x1024 S8x1024x1024 [2] [1] [1] [2] [0] [0]
  dot_S8x1024x2048_S1024x2048_S8x1024x1024_2_1_01_0_n_n_wf : DotDims.WF S8x1024x2048 S1024x2048 S8x1024x1024 [2] [1] [0, 1] [0] [] []

variable [Facts₀]

def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf
def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf
def dot_S8x1024x2048_S1024x2048_S8x1024x1024_2_1_01_0_n_n : DotDims S8x1024x2048 S1024x2048 S8x1024x1024 where
  lhsContracting := [2]
  rhsContracting := [1]
  lhsNonContracting := [0, 1]
  rhsNonContracting := [0]
  lhsBatch := []
  rhsBatch := []
  wf := dot_S8x1024x2048_S1024x2048_S8x1024x1024_2_1_01_0_n_n_wf

class Facts : Prop extends Facts₀ where

variable [Facts]
-- ==== Proof.Spec.lean ====
/-
  The mathematics both programs compute, one query row at a time, over the extended reals.

  For a query row `q`, keys/values `V`, weights `w1, b1, wv, wq, b2`:
    p      = q · w1ᵀ + b1                      (the projected query row)
    s k    = ∑ d, p d · V k d                   (its score against key k)
    a k    = exp (s k − max (−∞, max_k s k)) / ∑ k', exp (s k' − …)   (the softmax over keys)
    att d  = ∑ k, a k · V k d                   (the attended value row)
    out o  = tanh (∑ f, att f · wv o f + ∑ f, q f · wq o f + b2 o)
  where `wv` and `wq` are the left and right halves of the second weight matrix.

  The kernel computes the scores by a three-term split of both operands into a leading part and a
  residual: with `lo = V − V` (the residual of the values) and `p − p` (the residual of the projected
  row) it adds `p·hi + p·lo + (p − p)·hi`. Over the extended reals `x − x = 0` holds exactly for the FINITE
  `x` (`⊤ − ⊤ = ⊥`), so the two residual terms vanish when the inputs are finite, and only then.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The value both programs start a row's maximum from: the f32 pattern of −∞. -/
abbrev negInf : EReal := Ideal.ofBits .f32 0xFF800000#32

/-! ## Finite extended reals -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i, IsReal (f i)) : IsReal (∑ i ∈ s, f i) :=
  Finset.sum_induction f IsReal (fun _ _ => IsReal.add) ⟨0, EReal.coe_zero.symm⟩ (fun i _ => h i)

/-- A finite number less itself is zero (false at the infinities). -/
theorem IsReal.sub_self {x : EReal} (hx : IsReal x) : x - x = 0 := by
  obtain ⟨a, rfl⟩ := hx
  rw [← EReal.coe_sub, _root_.sub_self, EReal.coe_zero]

/-! ## One row -/

section Row

variable {δ ν κ ο : Type} [Fintype δ] [Fintype ν] [Fintype κ] [Fintype ο]

/-- The projected query row `q · w1ᵀ + b1`. -/
def proj (q : δ → EReal) (w1 : ν → δ → EReal) (b1 : ν → EReal) : ν → EReal :=
  fun v => (∑ d, q d * w1 v d) + b1 v

/-- The scores of a projected row against every key. -/
def dots (p : ν → EReal) (V : κ → ν → EReal) : κ → EReal := fun k => ∑ d, p d * V k d

/-- The kernel's scores: leading·leading + leading·residual + residual·leading, the row's residual being `p − p`. -/
def dots3 (p : ν → EReal) (hi lo : κ → ν → EReal) : κ → EReal :=
  fun k => ((∑ d, p d * hi k d) + (∑ d, p d * lo k d)) + ∑ d, (p d - p d) * hi k d

/-- The row's maximum, taken from −∞ and joined with −∞ once more, as both programs do. -/
def peak (s : κ → EReal) : EReal := max negInf (Finset.univ.fold max negInf s)

/-- The shifted exponentials. -/
def weight (s : κ → EReal) : κ → EReal := fun k => Ideal.exp (s k - peak s)

/-- The softmax over the keys. -/
def soft (s : κ → EReal) : κ → EReal := fun k => Ideal.div (weight s k) (∑ k', weight s k')

/-- The attended row: the values averaged with the softmax weights. -/
def mix (a : κ → EReal) (V : κ → ν → EReal) : ν → EReal := fun d => ∑ k, a k * V k d

/-- The output row: both halves of the second projection, the bias, tanh. -/
def head (att : ν → EReal) (q : δ → EReal) (wv : ο → ν → EReal) (wq : ο → δ → EReal) (b2 : ο → EReal) : ο → EReal :=
  fun o => Ideal.tanh (((∑ f, att f * wv o f) + (∑ f, q f * wq o f)) + b2 o)

/-- The reference's output row. -/
def rowRef (q : δ → EReal) (V : κ → ν → EReal) (w1 : ν → δ → EReal) (b1 : ν → EReal)
    (wv : ο → ν → EReal) (wq : ο → δ → EReal) (b2 : ο → EReal) : ο → EReal :=
  head (mix (soft (dots (proj q w1 b1) V)) V) q wv wq b2

/-- The kernel's output row, from the values' leading part and residual. -/
def rowKer (q : δ → EReal) (hi lo : κ → ν → EReal) (w1 : ν → δ → EReal) (b1 : ν → EReal)
    (wv : ο → ν → EReal) (wq : ο → δ → EReal) (b2 : ο → EReal) : ο → EReal :=
  head (mix (soft (dots3 (proj q w1 b1) hi lo)) hi) q wv wq b2

theorem proj_isReal {q : δ → EReal} {w1 : ν → δ → EReal} {b1 : ν → EReal} (hq : ∀ d, IsReal (q d))
    (hw : ∀ v d, IsReal (w1 v d)) (hb : ∀ v, IsReal (b1 v)) (v : ν) : IsReal (proj q w1 b1 v) :=
  (IsReal.sum _ _ fun d => (hq d).mul (hw v d)).add (hb v)

/-- With a finite projected row and finite values whose residual is `V − V`, the two residual terms of the kernel's
    scores are sums of zeros. -/
theorem dots3_eq_dots {p : ν → EReal} {V : κ → ν → EReal} (hp : ∀ d, IsReal (p d)) (hV : ∀ k d, IsReal (V k d)) :
    dots3 p V (fun k d => V k d - V k d) = dots p V := by
  funext k
  unfold dots3 dots
  have e1 : (∑ d, p d * (V k d - V k d)) = 0 :=
    Finset.sum_eq_zero fun d _ => by rw [(hV k d).sub_self, mul_zero]
  have e2 : (∑ d, (p d - p d) * V k d) = 0 :=
    Finset.sum_eq_zero fun d _ => by rw [(hp d).sub_self, zero_mul]
  rw [e1, e2, add_zero, add_zero]

/-- So on finite inputs the kernel's row is the reference's. The hypotheses name what each of the kernel's operands
    is, entry by entry, so that they can be discharged against blocks read out of arrays. -/
theorem rowKer_eq_rowRef {q q' : δ → EReal} {hi lo V : κ → ν → EReal} {w1 w1' : ν → δ → EReal} {b1 b1' : ν → EReal}
    {wv wv' : ο → ν → EReal} {wq wq' : ο → δ → EReal} {b2 b2' : ο → EReal}
    (eq : ∀ d, q d = q' d) (ehi : ∀ k d, hi k d = V k d) (elo : ∀ k d, lo k d = V k d - V k d)
    (ew1 : ∀ v d, w1 v d = w1' v d) (eb1 : ∀ v, b1 v = b1' v) (ewv : ∀ o f, wv o f = wv' o f)
    (ewq : ∀ o f, wq o f = wq' o f) (eb2 : ∀ o, b2 o = b2' o)
    (hq : ∀ d, IsReal (q' d)) (hV : ∀ k d, IsReal (V k d)) (hw : ∀ v d, IsReal (w1' v d)) (hb : ∀ v, IsReal (b1' v)) :
    rowKer q hi lo w1 b1 wv wq b2 = rowRef q' V w1' b1' wv' wq' b2' := by
  obtain rfl : q = q' := funext eq
  obtain rfl : hi = V := funext fun k => funext (ehi k)
  obtain rfl : lo = fun k d => hi k d - hi k d := funext fun k => funext (elo k)
  obtain rfl : w1 = w1' := funext fun v => funext (ew1 v)
  obtain rfl : b1 = b1' := funext eb1
  obtain rfl : wv = wv' := funext fun o => funext (ewv o)
  obtain rfl : wq = wq' := funext fun o => funext (ewq o)
  obtain rfl : b2 = b2' := funext eb2
  unfold rowKer rowRef
  rw [dots3_eq_dots (proj_isReal hq hw hb) hV]

end Row

/-! ## The whole result array -/

/-- Column `f` of the left half of a `[1024, 2048]` matrix. -/
def colL (f : Fin 1024) : Fin 2048 := ⟨f.val, by omega⟩
/-- Column `f` of its right half. -/
def colR (f : Fin 1024) : Fin 2048 := ⟨1024 + f.val, by omega⟩

/-- Entry `(b, t, o)` of the result: row `t` of batch `b` of the query against batch `b` of the values. -/
def entry (Q Vv : (⟨3, ![8, 1024, 1024]⟩ : Shape).Idx → EReal) (W1 : (⟨2, ![1024, 1024]⟩ : Shape).Idx → EReal)
    (B1 : (⟨1, ![1024]⟩ : Shape).Idx → EReal) (W2 : (⟨2, ![1024, 2048]⟩ : Shape).Idx → EReal)
    (B2 : (⟨1, ![1024]⟩ : Shape).Idx → EReal) (b : Fin 8) (t o : Fin 1024) : EReal :=
  rowRef (fun d : Fin 1024 => Q (ix3 b t d)) (fun (k d : Fin 1024) => Vv (ix3 b k d)) (fun (v d : Fin 1024) => W1 (ix2 v d))
    (fun v : Fin 1024 => B1 (ix1 v)) (fun (o f : Fin 1024) => W2 (ix2 o (colL f))) (fun (o f : Fin 1024) => W2 (ix2 o (colR f)))
    (fun o : Fin 1024 => B2 (ix1 o)) o

/-- The result array as one function of the six argument arrays. -/
def result (Q Vv : (⟨3, ![8, 1024, 1024]⟩ : Shape).Idx → EReal) (W1 : (⟨2, ![1024, 1024]⟩ : Shape).Idx → EReal)
    (B1 : (⟨1, ![1024]⟩ : Shape).Idx → EReal) (W2 : (⟨2, ![1024, 2048]⟩ : Shape).Idx → EReal)
    (B2 : (⟨1, ![1024]⟩ : Shape).Idx → EReal) : (⟨3, ![8, 1024, 1024]⟩ : Shape).Idx → EReal :=
  fun i => entry Q Vv W1 B1 W2 B2 (i 0) (i 1) (i 2)

end Cert.Attn

end
-- ==== Proof.Finite.lean ====
/-
  Finite inputs. The precondition is the conjunction of six tests `all (|x| < +∞)`, one per argument array.
  Over the extended reals `|x| = max x (-x)`, and `max x (-x) < ⊤` fails at `x = ⊤` (the maximum is `⊤`) and at
  `x = ⊥` (then `-x = ⊤`), so it leaves exactly the real numbers. Hence a precondition that evaluates to true
  makes every entry of the first four arrays a real number.
-/
import proofs.«413455_j7773890806016_3_alg».proof.Pre_finite_inputs
import proofs.«413455_j7773890806016_3_alg».proof.Proof.Spec
import Idealize.ShloMosaic.Lib.ReduceAll
import Idealize.ShloMosaic.Lib.ValueIdx
import Idealize.ShloMosaic.PureOps.Ideal

noncomputable section

namespace Cert.Attn

open Idealize.ShloMosaic

/-- The f32 pattern `0x7F800000` (sign 0, exponent all ones, fraction 0) denotes `+∞`. -/
theorem ofBits_posInf : Ideal.ofBits .f32 0x7F800000#32 = (⊤ : EReal) := by
  simp [Ideal.ofBits, Ideal.ieee]

/-- An extended real whose absolute value `max x (-x)` is below `+∞` is a real number. -/
theorem isReal_of_abs_lt_top {x : EReal} (h : max x (-x) < ⊤) : IsReal x := by
  induction x using EReal.rec with
  | bot => simp at h
  | coe r => exact ⟨r, rfl⟩
  | top => simp at h

/-- The rank-0 shape has one index. -/
instance : Subsingleton Cert.Pre_finite_inputs.S_.Idx := ⟨fun a b => funext fun d => d.elim0⟩

/-- `all (|x| < +∞)` over an array of any shape: if the reduction by `and` of the elementwise test into the
    rank-0 shape is 1, every entry of the array is a real number. -/
theorem isReal_of_all {s u : Shape} {axes : List (Fin s.rank)} (x : FVec Ideal s .f32)
    (hb : Cert.Pre_finite_inputs.S_.BroadcastsInDim s (![] : Fin 0 → Fin s.rank))
    (init : IVec u 1) (hr : s.ReducesTo axes Cert.Pre_finite_inputs.S_) (hu : 0 < u.numel)
    (j : Cert.Pre_finite_inputs.S_.Idx)
    (e : Host.reduce IntOp.andi
          (cmpf .olt (Host.absf x)
            (broadcastInDim s ![] hb (constant Cert.Pre_finite_inputs.S_ .f32 0x7F800000#32)))
          init hr hu j = 1#1) :
    ∀ i, IsReal (x i) := by
  intro i
  -- the test holds at every index
  have h1 := Host.reduce_andi_all _ init hr hu j e i
  -- at index i the test is the comparison of max (x i) (-(x i)) with the constant +∞
  have h2 : Ideal.cmp .olt (max (x i) (-(x i))) (Ideal.ofBits .f32 0x7F800000#32) = 1#1 := h1
  rw [ofBits_posInf] at h2
  have h3 : max (x i) (-(x i)) < ⊤ := by
    by_contra hn
    simp [Ideal.cmp, hn] at h2
  exact isReal_of_abs_lt_top h3

theorem real_of_pre [Cert.Pre_finite_inputs.Facts]
    (a0 a1 : FVec Ideal Cert.Pre_finite_inputs.S8x1024x1024 .f32) (a2 : FVec Ideal Cert.Pre_finite_inputs.S1024x1024 .f32)
    (a3 : FVec Ideal Cert.Pre_finite_inputs.S1024 .f32) (a4 : FVec Ideal Cert.Pre_finite_inputs.S1024x2048 .f32)
    (a5 : FVec Ideal Cert.Pre_finite_inputs.S1024 .f32)
    (h : Cert.Pre_finite_inputs.fn (F := Ideal) a0 a1 a2 a3 a4 a5 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [Cert.Pre_finite_inputs.fn, Cert.Pre_finite_inputs.fn_part1] at h0
  -- the result is ((((t0 ∧ t1) ∧ t2) ∧ t3) ∧ t4) ∧ t5 at the one index
  obtain ⟨h0123_4, -⟩ := IntOp.andi_eq_one.1 h0
  obtain ⟨h0123, -⟩ := IntOp.andi_eq_one.1 h0123_4
  obtain ⟨h012, h3⟩ := IntOp.andi_eq_one.1 h0123
  obtain ⟨h01, h2⟩ := IntOp.andi_eq_one.1 h012
  obtain ⟨h0', h1⟩ := IntOp.andi_eq_one.1 h01
  exact ⟨isReal_of_all a0 _ _ _ _ _ h0', isReal_of_all a1 _ _ _ _ _ h1,
    isReal_of_all a2 _ _ _ _ _ h2, isReal_of_all a3 _ _ _ _ _ h3⟩

end Cert.Attn

end
-- ==== Proof.RefValue.lean ====
/-
  The reference program's result, read entry by entry, is the specification's `result`.

  Entry (b, t, o) of the reference is tanh (∑ k < 2048, cat k · W2 o k + b2 o), where cat is the attended
  row followed by the query row; the attended row is softmax(scores) · V, the scores are the projected
  query row against every key, and the softmax is exp (s − max (−∞, max s)) / (0 + ∑ exp (…)). Each stage
  is read at an index below, from the innermost outwards, and the sum over the 2048 joined columns is split
  at 1024 into the two sums of the specification's output row.
-/
import proofs.«413455_j7773890806016_3_alg».proof.Proof.Gen.ReferenceIdeal.Read
import proofs.«413455_j7773890806016_3_alg».proof.Proof.Spec
import Idealize.ShloMosaic.Lib.Pipeline.Value
import Idealize.ShloMosaic.Lib.ValueIdx
import Idealize.ShloMosaic.PureOps.Ideal.Laws

noncomputable section

namespace Cert.Attn.RefValue

open Idealize.ShloMosaic Idealize.ShloMosaic.ValueIdx Cert.ReferenceIdeal Cert.ReferenceIdeal.Read
open Cert.ReferenceIdeal.Gen Idealize.ShloMosaic.StableHlo

section Stages

variable (x0 x1 : (⟨S8x1024x1024, .f32⟩ : BufTy).Contents (Elt Ideal)) (x2 : (⟨S1024x1024, .f32⟩ : BufTy).Contents (Elt Ideal))
  (x3 : (⟨S1024, .f32⟩ : BufTy).Contents (Elt Ideal)) (x4 : (⟨S1024x2048, .f32⟩ : BufTy).Contents (Elt Ideal))
  (x5 : (⟨S1024, .f32⟩ : BufTy).Contents (Elt Ideal))

/-! ## The index maps of the generated reading lemmas, at coordinates -/

theorem lidx0 (b : Fin 8) (t v d : Fin 1024) : lidx_main_v0 (ix3 b t v) d = ix3 b t d := by
  funext a; match a with | ⟨0, _⟩ => rfl | ⟨1, _⟩ => rfl | ⟨2, _⟩ => rfl

theorem ridx0 (b : Fin 8) (t v d : Fin 1024) : ridx_main_v0 (ix3 b t v) d = ix2 v d := by
  funext a; match a with | ⟨0, _⟩ => rfl | ⟨1, _⟩ => rfl

theorem idx12 (b : Fin 8) (t v : Fin 1024) : idx_main_v1 (idx_main_v2 (ix3 b t v)) = ix1 v := by
  funext a; match a with | ⟨0, _⟩ => rfl

theorem lidx4 (b : Fin 8) (t k d : Fin 1024) : lidx_main_v4 (ix3 b t k) d = ix3 b t d := by
  funext a; match a with | ⟨0, _⟩ => rfl | ⟨1, _⟩ => rfl | ⟨2, _⟩ => rfl

theorem ridx4 (b : Fin 8) (t k d : Fin 1024) : ridx_main_v4 (ix3 b t k) d = ix3 b k d := by
  funext a; match a with | ⟨0, _⟩ => rfl | ⟨1, _⟩ => rfl | ⟨2, _⟩ => rfl

/-! ## The scores -/

/-- The scores of query row `(b, t)` against the keys of batch `b`. -/
abbrev scores (b : Fin 8) (t : Fin 1024) : Fin 1024 → EReal :=
  dots (proj (fun d : Fin 1024 => x0 (ix3 b t d)) (fun (v d : Fin 1024) => x2 (ix2 v d)) (fun v : Fin 1024 => x3 (ix1 v)))
    (fun (k d : Fin 1024) => x1 (ix3 b k d))

/-- The projected query: the first product plus the first bias. -/
theorem v3_at (b : Fin 8) (t v : Fin 1024) :
    val_main_v3 (F := Ideal) x0 x2 x3 (ix3 b t v)
      = proj (fun d : Fin 1024 => x0 (ix3 b t d)) (fun (v d : Fin 1024) => x2 (ix2 v d)) (fun v : Fin 1024 => x3 (ix1 v)) v := by
  rw [val_main_v3_apply, val_main_v0_apply, val_main_v2_apply, val_main_v1_apply, Ideal.addf_def]
  simp only [lidx0, ridx0, idx12]
  rfl

/-- The scores: the projected row against key `k`. -/
theorem v4_at (b : Fin 8) (t k : Fin 1024) :
    val_main_v4 (F := Ideal) x0 x1 x2 x3 (ix3 b t k) = scores x0 x1 x2 x3 b t k := by
  rw [val_main_v4_apply]
  simp only [lidx4, ridx4, v3_at]
  rfl

/-! ## The row maximum -/

theorem idx89 (b : Fin 8) (t k : Fin 1024) : idx_main_v8 (idx_main_v9 (ix3 b t k)) = ix2 b t := by
  funext a; match a with | ⟨0, _⟩ => rfl | ⟨1, _⟩ => rfl

/-- The last axis of an `[8, 1024, 1024]` array is the one a row's reduction drops. -/
theorem dropsLast : S8x1024x1024.Reduces [2] S8x1024 := by decide

/-- The row index `(b, t)` with `k` inserted on the dropped axis is `(b, t, k)`. -/
theorem lift_at (b : Fin 8) (t k : Fin 1024) : dropsLast.lift (ix2 b t) k = ix3 b t k := by
  funext a; apply Fin.ext; match a with | ⟨0, _⟩ => rfl | ⟨1, _⟩ => rfl | ⟨2, _⟩ => rfl

/-- The reduction with `maximum` over the keys, from −∞: the fold of `max` over the row of scores. -/
theorem v5_at (b : Fin 8) (t : Fin 1024) :
    val_main_v5 (F := Ideal) x0 x1 x2 x3 (ix2 b t) = Finset.univ.fold max negInf (scores x0 x1 x2 x3 b t) := by
  unfold val_main_v5
  rw [Host.reduce_eq_fold_single FloatOps.maximumf _ _ reducesTo_S8x1024x1024_S8x1024_d2 dropsLast h_S_,
    val_main_cst_apply, Ideal.ofBits_def]
  have e : val_main_v4 (F := Ideal) x0 x1 x2 x3 ∘ dropsLast.lift (ix2 b t) = scores x0 x1 x2 x3 b t :=
    funext fun (k : Fin 1024) =>
      (congrArg (val_main_v4 (F := Ideal) x0 x1 x2 x3) (lift_at b t k)).trans (v4_at x0 x1 x2 x3 b t k)
  rw [e]
  rfl

/-- Joined once more with −∞: the specification's `peak`. -/
theorem v7_at (b : Fin 8) (t : Fin 1024) :
    val_main_v7 (F := Ideal) x0 x1 x2 x3 (ix2 b t) = peak (scores x0 x1 x2 x3 b t) := by
  rw [val_main_v7_apply, val_main_v6_apply, val_main_cst_0_apply, v5_at, Ideal.maximumf_def, Ideal.ofBits_def]
  rfl

/-! ## The softmax and the attended row -/

theorem idx12s (b : Fin 8) (t k : Fin 1024) : idx_main_v12 (ix2 b t) k = ix3 b t k := by
  funext a; match a with | ⟨0, _⟩ => rfl | ⟨1, _⟩ => rfl | ⟨2, _⟩ => rfl

theorem idx1314 (b : Fin 8) (t k : Fin 1024) : idx_main_v13 (idx_main_v14 (ix3 b t k)) = ix2 b t := by
  funext a; match a with | ⟨0, _⟩ => rfl | ⟨1, _⟩ => rfl

theorem lidx16 (b : Fin 8) (t d k : Fin 1024) : lidx_main_v16 (ix3 b t d) k = ix3 b t k := by
  funext a; match a with | ⟨0, _⟩ => rfl | ⟨1, _⟩ => rfl | ⟨2, _⟩ => rfl

theorem ridx16 (b : Fin 8) (t d k : Fin 1024) : ridx_main_v16 (ix3 b t d) k = ix3 b k d := by
  funext a; match a with | ⟨0, _⟩ => rfl | ⟨1, _⟩ => rfl | ⟨2, _⟩ => rfl

/-- The shifted exponentials: the score less the row's peak, exponentiated. -/
theorem v11_at (b : Fin 8) (t k : Fin 1024) :
    val_main_v11 (F := Ideal) x0 x1 x2 x3 (ix3 b t k) = weight (scores x0 x1 x2 x3 b t) k := by
  rw [val_main_v11_apply, val_main_v10_apply, val_main_v9_apply, val_main_v8_apply, idx89, v7_at, v4_at,
    Ideal.subf_def, Ideal.hostUnary_exp_def]
  rfl

/-- Their sum over the keys; the reduction starts from the f32 zero, which adds nothing. -/
theorem v12_at (b : Fin 8) (t : Fin 1024) :
    val_main_v12 (F := Ideal) x0 x1 x2 x3 (ix2 b t) = ∑ k, weight (scores x0 x1 x2 x3 b t) k := by
  rw [val_main_v12_apply, val_main_cst_1_apply, Ideal.ofBits_def, Ideal.ofBits_zero_f32, zero_add]
  simp only [idx12s, v11_at]

/-- The softmax: each shifted exponential over their sum. -/
theorem v15_at (b : Fin 8) (t k : Fin 1024) :
    val_main_v15 (F := Ideal) x0 x1 x2 x3 (ix3 b t k) = soft (scores x0 x1 x2 x3 b t) k := by
  rw [val_main_v15_apply, val_main_v14_apply, val_main_v13_apply, idx1314, v12_at, v11_at, Ideal.hostDivf_def]
  rfl

/-- The attended row: the values of batch `b` averaged with the softmax weights. -/
theorem v16_at (b : Fin 8) (t d : Fin 1024) :
    val_main_v16 (F := Ideal) x0 x1 x2 x3 (ix3 b t d)
      = mix (soft (scores x0 x1 x2 x3 b t)) (fun (k d : Fin 1024) => x1 (ix3 b k d)) d := by
  rw [val_main_v16_apply]
  simp only [lidx16, ridx16, v15_at]
  rfl

/-! ## The joined row and the second projection -/

/-- A joined column in the left half reads the attended row. -/
theorem v17_left (b : Fin 8) (t f : Fin 1024) :
    val_main_v17 (F := Ideal) x0 x1 x2 x3 (ix3 b t (colL f)) = val_main_v16 (F := Ideal) x0 x1 x2 x3 (ix3 b t f) := by
  unfold val_main_v17
  exact concatenate_pair_apply_left 2 _ _ concatenates_S8x1024x1024_S8x1024x1024_S8x1024x2048_d2 _ rfl _
    (fun a => by match a with | ⟨0, _⟩ => rfl | ⟨1, _⟩ => rfl | ⟨2, _⟩ => rfl)

/-- A joined column in the right half reads the query row, 1024 columns back. -/
theorem v17_right (b : Fin 8) (t f : Fin 1024) :
    val_main_v17 (F := Ideal) x0 x1 x2 x3 (ix3 b t (colR f)) = x0 (ix3 b t f) := by
  unfold val_main_v17
  exact concatenate_pair_apply_right 2 _ _ concatenates_S8x1024x1024_S8x1024x1024_S8x1024x2048_d2 _ rfl rfl _
    (fun a ha => by match a with | ⟨0, _⟩ => rfl | ⟨1, _⟩ => rfl | ⟨2, _⟩ => exact absurd rfl ha)
    (Nat.add_comm _ _)

theorem lidx18 (b : Fin 8) (t o : Fin 1024) (k : Fin 2048) : lidx_main_v18 (ix3 b t o) k = ix3 b t k := by
  funext a; match a with | ⟨0, _⟩ => rfl | ⟨1, _⟩ => rfl | ⟨2, _⟩ => rfl

theorem ridx18 (b : Fin 8) (t o : Fin 1024) (k : Fin 2048) : ridx_main_v18 (ix3 b t o) k = ix2 o k := by
  funext a; match a with | ⟨0, _⟩ => rfl | ⟨1, _⟩ => rfl

/-- A sum over the 2048 joined columns is the sum over the left half plus the sum over the right half. -/
theorem sum_halves (g : Fin 2048 → EReal) : ∑ k, g k = (∑ f, g (colL f)) + ∑ f, g (colR f) :=
  Fin.sum_univ_add (a := 1024) (b := 1024) g

/-- The second product, split at the join: the attended row against the left half of the weights plus the query row
    against the right half. -/
theorem v18_at (b : Fin 8) (t o : Fin 1024) :
    val_main_v18 (F := Ideal) x0 x1 x2 x3 x4 (ix3 b t o)
      = (∑ f, mix (soft (scores x0 x1 x2 x3 b t)) (fun (k d : Fin 1024) => x1 (ix3 b k d)) f * x4 (ix2 o (colL f)))
        + ∑ f, x0 (ix3 b t f) * x4 (ix2 o (colR f)) := by
  rw [val_main_v18_apply]
  simp only [lidx18, ridx18]
  rw [sum_halves]
  simp only [v17_left, v17_right, v16_at]

theorem idx1920 (b : Fin 8) (t o : Fin 1024) : idx_main_v19 (idx_main_v20 (ix3 b t o)) = ix1 o := by
  funext a; match a with | ⟨0, _⟩ => rfl

/-- The second bias and the hyperbolic tangent: the specification's entry. -/
theorem v22_at (b : Fin 8) (t o : Fin 1024) :
    val_main_v22 (F := Ideal) x0 x1 x2 x3 x4 x5 (ix3 b t o) = entry x0 x1 x2 x3 x4 x5 b t o := by
  rw [val_main_v22_apply, val_main_v21_apply, val_main_v20_apply, val_main_v19_apply, idx1920, v18_at,
    Ideal.addf_def, Ideal.hostUnary_tanh_def]
  rfl

end Stages

/-- The reference's result is the specification's, entry by entry. -/
theorem ref_eq_result (x0 x1 : (⟨S8x1024x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x2048, .f32⟩ : BufTy).Contents (Elt Ideal)) (x5 : (⟨S1024, .f32⟩ : BufTy).Contents (Elt Ideal)) :
    Cert.ReferenceIdeal.Read.val_main_v22 (F := Ideal) x0 x1 x2 x3 x4 x5 = Cert.Attn.result x0 x1 x2 x3 x4 x5 := by
  funext i
  obtain ⟨b, t, o, rfl⟩ : ∃ (b : Fin 8) (t o : Fin 1024), i = ix3 b t o := ⟨i 0, i 1, i 2, eq_ix3 i⟩
  exact v22_at x0 x1 x2 x3 x4 x5 b t o

end Cert.Attn.RefValue

end
-- ==== Proof.KernelBody.lean ====
/-
  The kernel body's arithmetic read entry by entry over the extended reals: what one grid point writes to row `r`,
  column `o` of its output block is the kernel-shaped row of Spec.lean (`rowKer`) of row `r` of the query block,
  the two value blocks and the weights.

  The pieces, each read at an index: a matrix product contracting the second axis of both operands (`a · bᵀ`), one
  contracting the second axis of the left with the first of the right (`a · b`), a row's maximum and a row's sum
  (reductions over the second axis), a per-row scalar spread along the row, a vector spread down the rows.
-/
import proofs.«413455_j7773890806016_3_alg».proof.Proof.Gen.KernelIdeal.Skeleton
import proofs.«413455_j7773890806016_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attn.KernelBody

open Idealize.ShloMosaic Idealize.ShloMosaic.ValueIdx Cert.KernelIdeal Cert.KernelIdeal.Gen

/-! ## Layout: a column spread along the rows, a row spread down the columns -/

/-- A vector of one entry per row, made a column and spread along each row, reads at `(r, c)` the vector at `r`. -/
theorem spread_col {α : Type} (v : S512.Idx → α) (h1 : S512.ShapeCasts S512x1) (h2 : S512x1.Broadcasts S512x1024)
    (r : Fin 512) (c : Fin 1024) : broadcastTo S512x1024 (shapeCast S512x1 v h1) h2 (ix2 r c) = v (ix1 r) := by
  refine (broadcastTo_apply _ h2 (ix2 r c) (ix2 r (0 : Fin 1)) fun a => ?_).trans ?_
  · match a with
    | ⟨0, _⟩ => show r.val = if (512 : Nat) = 1 then 0 else r.val; rw [if_neg (by decide)]
    | ⟨1, _⟩ => show (0 : Nat) = if (1 : Nat) = 1 then 0 else c.val; rw [if_pos rfl]
  · exact shapeCast_apply v h1 _ _ (by
      rw [Shape.rowMajor_val_one, Shape.rowMajor_val_two]
      show r.val = r.val * 1 + 0
      omega)

/-- A vector of one entry per column, made a row and spread down the rows, reads at `(r, c)` the vector at `c`. -/
theorem spread_row {α : Type} (v : S1024.Idx → α) (h1 : S1024.ShapeCasts S1x1024) (h2 : S1x1024.Broadcasts S512x1024)
    (r : Fin 512) (c : Fin 1024) : broadcastTo S512x1024 (shapeCast S1x1024 v h1) h2 (ix2 r c) = v (ix1 c) :=
  (broadcastTo_1b_ab_apply _ h2 r c).trans (shapeCast_a_1a_apply v h1 0 c)

/-! ## The two matrix products at an entry -/

theorem lhsT_0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhsT_1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhsT_0 (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhsT_1 (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

/-- `a · bᵀ` into the zero accumulator: entry `(r, c)` is the sum over `k` of `a (r, k) · b (c, k)`. -/
theorem mulT_apply {φ₁ φ₂ : FTy} (a : FVec Ideal S512x1024 φ₁) (b : FVec Ideal S1024x1024 φ₂) (r : Fin 512) (c : Fin 1024) :
    matmul dot_S512x1024_S1024x1024_S512x1024_1_1_0_0_n_n none a b (constant S512x1024 .f32 0x00000000#32) (ix2 r c)
      = ∑ k : Fin 1024, a (ix2 r k) * b (ix2 c k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r c) ((contrEquiv1 dot_S512x1024_S1024x1024_S512x1024_1_1_0_0_n_n 1024 rfl rfl).symm k) = ix2 r k := funext fun x => Fin.ext (by
    match x with
    | ⟨0, _⟩ => exact lhsT_0 _ _
    | ⟨1, _⟩ => exact (lhsT_1 _ _).trans hk)
  have er : dot_S512x1024_S1024x1024_S512x1024_1_1_0_0_n_n.rhsIdx (ix2 r c) ((contrEquiv1 dot_S512x1024_S1024x1024_S512x1024_1_1_0_0_n_n 1024 rfl rfl).symm k) = ix2 c k := funext fun x => Fin.ext (by
    match x with
    | ⟨0, _⟩ => exact rhsT_0 _ _
    | ⟨1, _⟩ => exact (rhsT_1 _ _).trans hk)
  rw [el, er]

theorem lhsN_0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsN_1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsN_0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsN_1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- `a · b` into the zero accumulator: entry `(r, c)` is the sum over `k` of `a (r, k) · b (k, c)`. -/
theorem mulN_apply {φ₁ φ₂ : FTy} (a : FVec Ideal S512x1024 φ₁) (b : FVec Ideal S1024x1024 φ₂) (r : Fin 512) (c : Fin 1024) :
    matmul dot_S512x1024_S1024x1024_S512x1024_1_0_0_1_n_n none a b (constant S512x1024 .f32 0x00000000#32) (ix2 r c)
      = ∑ k : Fin 1024, a (ix2 r k) * b (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun x => Fin.ext (by
    match x with
    | ⟨0, _⟩ => exact lhsN_0 _ _
    | ⟨1, _⟩ => exact (lhsN_1 _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun x => Fin.ext (by
    match x with
    | ⟨0, _⟩ => exact (rhsN_0 _ _).trans hk
    | ⟨1, _⟩ => exact rhsN_1 _ _)
  rw [el, er]

/-! ## A row's maximum and a row's sum -/

/-- The maximum over the second axis, from −∞, at row `r`: the fold of `max` over the row's entries. -/
theorem rowMax_apply (s : FVec Ideal S512x1024 .f32) (h : S512x1024.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r)
      = (Finset.univ : Finset (Fin 1024)).fold max negInf (fun k => s (ix2 r k)) := by
  refine (Ideal.multiReduction_maximumf_single s _ h _ _ (ix1 r)).trans ?_
  refine congrArg (Finset.fold max negInf · Finset.univ) (funext fun k => ?_)
  exact congrArg s (funext fun x => Fin.ext (by match x with | ⟨0, _⟩ => rfl | ⟨1, _⟩ => rfl))

/-- The sum over the second axis at row `r`. -/
theorem rowSum_apply (s : FVec Ideal S512x1024 .f32) (h : S512x1024.Reduces [1] S512) (hφ : FKind.Formats .f32)
    (hacc : (0x00000000#32 : BitVec 32) = FKind.add.neutral .f32 hφ) (r : Fin 512) :
    multiReduction .add [1] S512 s 0x00000000#32 h hφ hacc (ix1 r)
      = ∑ k : Fin 1024, s (ix2 r k) := by
  refine (Ideal.multiReduction_add_single s _ h _ _ (ix1 r)).trans ?_
  refine Finset.sum_congr rfl fun k _ => ?_
  exact congrArg s (funext fun x => Fin.ext (by match x with | ⟨0, _⟩ => rfl | ⟨1, _⟩ => rfl))

/-! ## The body's stages, each a vector operation, read at an entry -/

/-- The f32 zero block every product accumulates into. -/
abbrev zeroBlk : FVec Ideal S512x1024 .f32 := constant S512x1024 .f32 0x00000000#32

/-- The query block, its leading unit axis dropped, reads at `(r, k)` the block at `(0, r, k)`. -/
theorem queryRows_apply (x0 : Vec Ideal S1x512x1024 .f32) (r : Fin 512) (k : Fin 1024) :
    k0_pay2 x0 (ix2 r k) = x0 (ix3 (0 : Fin 1) r k) :=
  shapeCast_1ab_ab_apply x0 shapeCasts_S1x512x1024_S512x1024 r k

/-- The projected rows of the block: `q · w1ᵀ + b1`. -/
def projBlk (x0 : Vec Ideal S1x512x1024 .f32) (x3 : Vec Ideal S1024x1024 .bf16) (x4 : Vec Ideal S1024 .f32) : FVec Ideal S512x1024 .f32 :=
  addf (matmul dot_S512x1024_S1024x1024_S512x1024_1_1_0_0_n_n none (k0_pay2 x0) (shapeCast S1024x1024 x3 shapeCasts_S1024x1024_S1024x1024 : FVec Ideal S1024x1024 .bf16) zeroBlk)
    (broadcastTo S512x1024 (shapeCast S1x1024 x4 shapeCasts_S1024_S1x1024) broadcasts_S1x1024_S512x1024)

theorem projBlk_apply (x0 : Vec Ideal S1x512x1024 .f32) (x3 : Vec Ideal S1024x1024 .bf16) (x4 : Vec Ideal S1024 .f32)
    (r : Fin 512) (v : Fin 1024) :
    projBlk x0 x3 x4 (ix2 r v)
      = proj (fun d : Fin 1024 => x0 (ix3 (0 : Fin 1) r d)) (fun v d : Fin 1024 => x3 (ix2 v d)) (fun v : Fin 1024 => x4 (ix1 v)) v := by
  unfold projBlk proj
  rw [addf_apply, mulT_apply, spread_row]
  refine congrArg (· + x4 (ix1 v)) (Finset.sum_congr rfl fun d _ => ?_)
  rw [queryRows_apply, shapeCast_self]

/-- The scores of the block's rows, by the three-term split. -/
def scoreBlk (p : FVec Ideal S512x1024 .f32) (x1 x2 : Vec Ideal S1x1024x1024 .bf16) : FVec Ideal S512x1024 .f32 :=
  addf (addf (matmul dot_S512x1024_S1024x1024_S512x1024_1_1_0_0_n_n none (truncf .bf16 p bitsLt_bf16_f32) (shapeCast S1024x1024 x1 shapeCasts_S1x1024x1024_S1024x1024 : FVec Ideal S1024x1024 .bf16) zeroBlk)
      (matmul dot_S512x1024_S1024x1024_S512x1024_1_1_0_0_n_n none (truncf .bf16 p bitsLt_bf16_f32) (shapeCast S1024x1024 x2 shapeCasts_S1x1024x1024_S1024x1024 : FVec Ideal S1024x1024 .bf16) zeroBlk))
    (matmul dot_S512x1024_S1024x1024_S512x1024_1_1_0_0_n_n none (truncf .bf16 (subf p p) bitsLt_bf16_f32) (shapeCast S1024x1024 x1 shapeCasts_S1x1024x1024_S1024x1024 : FVec Ideal S1024x1024 .bf16) zeroBlk)

theorem scoreBlk_apply (p : FVec Ideal S512x1024 .f32) (x1 x2 : Vec Ideal S1x1024x1024 .bf16) (r : Fin 512) (k : Fin 1024) :
    scoreBlk p x1 x2 (ix2 r k)
      = dots3 (fun d : Fin 1024 => p (ix2 r d)) (fun k d : Fin 1024 => x1 (ix3 (0 : Fin 1) k d)) (fun k d : Fin 1024 => x2 (ix3 (0 : Fin 1) k d)) k := by
  unfold scoreBlk dots3
  rw [addf_apply, addf_apply, mulT_apply, mulT_apply, mulT_apply]
  refine congrArg₂ (· + ·) (congrArg₂ (· + ·) ?_ ?_) ?_
  · exact Finset.sum_congr rfl fun d _ => congrArg (p (ix2 r d) * ·) (shapeCast_1ab_ab_apply x1 _ k d)
  · exact Finset.sum_congr rfl fun d _ => congrArg (p (ix2 r d) * ·) (shapeCast_1ab_ab_apply x2 _ k d)
  · exact Finset.sum_congr rfl fun d _ => congrArg ((p (ix2 r d) - p (ix2 r d)) * ·) (shapeCast_1ab_ab_apply x1 _ k d)

/-- The row maxima of a block of scores, joined with −∞. -/
def peakBlk (s : FVec Ideal S512x1024 .f32) : FVec Ideal S512 .f32 :=
  maximumf (broadcast S512 (Scalar.ofBits .f32 0xFF800000#32))
    (multiReduction .maximumf [1] S512 s 0xFF800000#32 reduces_S512x1024_S512 (.inl rfl) rfl)

/-- The shifted exponentials of a block of scores. -/
def weightBlk (s : FVec Ideal S512x1024 .f32) : FVec Ideal S512x1024 .f32 :=
  exp (subf s (broadcastTo S512x1024 (shapeCast S512x1 (peakBlk s) shapeCasts_S512_S512x1) broadcasts_S512x1_S512x1024))

/-- The softmax of each row of a block of scores. -/
def softBlk (s : FVec Ideal S512x1024 .f32) : FVec Ideal S512x1024 .f32 :=
  divf (weightBlk s)
    (broadcastTo S512x1024 (shapeCast S512x1 (multiReduction .add [1] S512 (weightBlk s) 0x00000000#32 reduces_S512x1024_S512 (.inl rfl) rfl)
      shapeCasts_S512_S512x1) broadcasts_S512x1_S512x1024)

theorem peakBlk_apply (s : FVec Ideal S512x1024 .f32) (r : Fin 512) :
    peakBlk s (ix1 r) = peak (fun k : Fin 1024 => s (ix2 r k)) := by
  unfold peakBlk peak
  rw [maximumf_apply]
  exact congrArg (max negInf) (rowMax_apply s _ _ _ r)

theorem weightBlk_apply (s : FVec Ideal S512x1024 .f32) (r : Fin 512) (k : Fin 1024) :
    weightBlk s (ix2 r k) = weight (fun k : Fin 1024 => s (ix2 r k)) k := by
  unfold weightBlk weight
  show Ideal.exp (s (ix2 r k) - broadcastTo S512x1024 (shapeCast S512x1 (peakBlk s) shapeCasts_S512_S512x1) broadcasts_S512x1_S512x1024 (ix2 r k)) = _
  rw [spread_col, peakBlk_apply]

theorem softBlk_apply (s : FVec Ideal S512x1024 .f32) (r : Fin 512) (k : Fin 1024) :
    softBlk s (ix2 r k) = soft (fun k : Fin 1024 => s (ix2 r k)) k := by
  unfold softBlk soft
  rw [divf_apply, spread_col, weightBlk_apply]
  refine congrArg (Ideal.div _) ((rowSum_apply (weightBlk s) _ _ _ r).trans ?_)
  exact Finset.sum_congr rfl fun k' _ => weightBlk_apply s r k'

/-- The attended rows: the softmax weights times the values' leading part. -/
def attBlk (a : FVec Ideal S512x1024 .f32) (x1 : Vec Ideal S1x1024x1024 .bf16) : FVec Ideal S512x1024 .f32 :=
  matmul dot_S512x1024_S1024x1024_S512x1024_1_0_0_1_n_n none (truncf .bf16 a bitsLt_bf16_f32) (shapeCast S1024x1024 x1 shapeCasts_S1x1024x1024_S1024x1024 : FVec Ideal S1024x1024 .bf16) zeroBlk

theorem attBlk_apply (a : FVec Ideal S512x1024 .f32) (x1 : Vec Ideal S1x1024x1024 .bf16) (r : Fin 512) (d : Fin 1024) :
    attBlk a x1 (ix2 r d) = mix (fun k : Fin 1024 => a (ix2 r k)) (fun k d : Fin 1024 => x1 (ix3 (0 : Fin 1) k d)) d := by
  unfold attBlk mix
  rw [mulN_apply]
  exact Finset.sum_congr rfl fun k _ => congrArg (a (ix2 r k) * ·) (shapeCast_1ab_ab_apply x1 _ k d)

/-- The body's attended block is the composition of the stages. -/
theorem attended_eq (x0 : Vec Ideal S1x512x1024 .f32) (x1 x2 : Vec Ideal S1x1024x1024 .bf16) (x3 : Vec Ideal S1024x1024 .bf16) (x4 : Vec Ideal S1024 .f32) :
    k0_pay3 x0 x1 x2 x3 x4 = truncf .bf16 (attBlk (softBlk (scoreBlk (projBlk x0 x3 x4) x1 x2)) x1) bitsLt_bf16_f32 := rfl

/-- The output block: both halves of the second projection, the bias, tanh, a leading unit axis put back. -/
theorem head_apply (v6 v36 : FVec Ideal S512x1024 .bf16) (v37 v40 : Vec Ideal S1024x1024 .bf16) (v44 : Vec Ideal S1024 .f32)
    (u : Fin 1) (r : Fin 512) (o : Fin 1024) :
    k0_pay1 v6 v36 v37 v40 v44 (ix3 u r o)
      = head (fun f : Fin 1024 => v36 (ix2 r f)) (fun f : Fin 1024 => v6 (ix2 r f)) (fun o f : Fin 1024 => v37 (ix2 o f))
          (fun o f : Fin 1024 => v40 (ix2 o f)) (fun o : Fin 1024 => v44 (ix1 o)) o := by
  unfold k0_pay1
  refine (shapeCast_ab_1ab_apply _ shapeCasts_S512x1024_S1x512x1024 u r o).trans ?_
  unfold head
  show Ideal.tanh ((matmul dot_S512x1024_S1024x1024_S512x1024_1_1_0_0_n_n none v36 (shapeCast S1024x1024 v37 shapeCasts_S1024x1024_S1024x1024 : FVec Ideal S1024x1024 .bf16) zeroBlk (ix2 r o)
      + matmul dot_S512x1024_S1024x1024_S512x1024_1_1_0_0_n_n none v6 (shapeCast S1024x1024 v40 shapeCasts_S1024x1024_S1024x1024 : FVec Ideal S1024x1024 .bf16) zeroBlk (ix2 r o))
      + broadcastTo S512x1024 (shapeCast S1x1024 v44 shapeCasts_S1024_S1x1024) broadcasts_S1x1024_S512x1024 (ix2 r o)) = _
  rw [mulT_apply, mulT_apply, spread_row, shapeCast_self, shapeCast_self]

/-- WHAT ONE GRID POINT WRITES at row `r`, column `o` of its output block, from its eight input blocks: the kernel-shaped
    row of the specification, of row `r` of the query block. -/
theorem body_apply (x0 : Vec Ideal S1x512x1024 .f32) (x1 x2 : Vec Ideal S1x1024x1024 .bf16) (x3 : Vec Ideal S1024x1024 .bf16)
    (x4 : Vec Ideal S1024 .f32) (x5 x6 : Vec Ideal S1024x1024 .bf16) (x7 : Vec Ideal S1024 .f32) (u : Fin 1) (r : Fin 512) (o : Fin 1024) :
    k0_pay1 (k0_pay2 x0) (k0_pay3 x0 x1 x2 x3 x4) x5 x6 x7 (ix3 u r o)
      = rowKer (fun d : Fin 1024 => x0 (ix3 (0 : Fin 1) r d)) (fun k d : Fin 1024 => x1 (ix3 (0 : Fin 1) k d))
          (fun k d : Fin 1024 => x2 (ix3 (0 : Fin 1) k d)) (fun v d : Fin 1024 => x3 (ix2 v d)) (fun v : Fin 1024 => x4 (ix1 v))
          (fun o f : Fin 1024 => x5 (ix2 o f)) (fun o f : Fin 1024 => x6 (ix2 o f)) (fun o : Fin 1024 => x7 (ix1 o)) o := by
  rw [head_apply]
  unfold rowKer
  have eq : (fun f : Fin 1024 => k0_pay2 x0 (ix2 r f)) = fun d : Fin 1024 => x0 (ix3 (0 : Fin 1) r d) :=
    funext fun f => queryRows_apply x0 r f
  have escore : (fun k : Fin 1024 => scoreBlk (projBlk x0 x3 x4) x1 x2 (ix2 r k))
      = dots3 (proj (fun d : Fin 1024 => x0 (ix3 (0 : Fin 1) r d)) (fun v d : Fin 1024 => x3 (ix2 v d)) (fun v : Fin 1024 => x4 (ix1 v)))
          (fun k d : Fin 1024 => x1 (ix3 (0 : Fin 1) k d)) (fun k d : Fin 1024 => x2 (ix3 (0 : Fin 1) k d)) := by
    funext k
    rw [scoreBlk_apply]
    exact congrArg (dots3 · _ _ k) (funext fun d => projBlk_apply x0 x3 x4 r d)
  have esoft : (fun k : Fin 1024 => softBlk (scoreBlk (projBlk x0 x3 x4) x1 x2) (ix2 r k))
      = soft (dots3 (proj (fun d : Fin 1024 => x0 (ix3 (0 : Fin 1) r d)) (fun v d : Fin 1024 => x3 (ix2 v d)) (fun v : Fin 1024 => x4 (ix1 v)))
          (fun k d : Fin 1024 => x1 (ix3 (0 : Fin 1) k d)) (fun k d : Fin 1024 => x2 (ix3 (0 : Fin 1) k d))) := by
    funext k
    rw [softBlk_apply, escore]
  have eatt : (fun f : Fin 1024 => k0_pay3 x0 x1 x2 x3 x4 (ix2 r f))
      = mix (soft (dots3 (proj (fun d : Fin 1024 => x0 (ix3 (0 : Fin 1) r d)) (fun v d : Fin 1024 => x3 (ix2 v d)) (fun v : Fin 1024 => x4 (ix1 v)))
          (fun k d : Fin 1024 => x1 (ix3 (0 : Fin 1) k d)) (fun k d : Fin 1024 => x2 (ix3 (0 : Fin 1) k d))))
          (fun k d : Fin 1024 => x1 (ix3 (0 : Fin 1) k d)) := by
    funext f
    rw [attended_eq]
    refine (attBlk_apply _ x1 r f).trans ?_
    rw [esoft]
  rw [eq, eatt]

end Cert.Attn.KernelBody

end
-- ==== Proof.KernelValue.lean ====
/-
  The kernel's result array as ONE function of the argument arrays.

  The launch runs a grid of 8 × 2 points; point (b, h) reads rows 512·h … 512·h + 511 of batch b of the query, the
  whole of batch b of the values' leading part and residual, and the whole weights, and writes rows 512·h … of
  batch b of the result. The operations before the launch leave the leading part equal to the values (a change of
  float format is the identity on the extended reals), the residual equal to `values − values`, and the two halves
  of the second weight matrix as its columns 0 … 1023 and 1024 … 2047. So every block the body reads is a
  restriction of an argument array, what a point writes back is the matching block of the specification's `result`
  (the body's row is the kernel-shaped row, equal to the reference's row on finite inputs), and the sixteen blocks
  tile the result.
-/
import proofs.«413455_j7773890806016_3_alg».proof.Proof.Gen.KernelIdeal.Value
import proofs.«413455_j7773890806016_3_alg».proof.Proof.KernelBody
import proofs.«413455_j7773890806016_3_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.Attn.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Attn

variable (m : (ℓ : Loc nD τ sig) → Buf (Elt Ideal) ℓ) (ρ : Dev nD → PrngReg)

/-! ## The six argument arrays of core `c`, as launched, each at its literal type -/

abbrev qArr (c : Dev nD) : S8x1024x1024.Idx → EReal := m ((c : Thread nD τ).loc main_arg0)
abbrev vArr (c : Dev nD) : S8x1024x1024.Idx → EReal := m ((c : Thread nD τ).loc main_arg1)
abbrev w1Arr (c : Dev nD) : S1024x1024.Idx → EReal := m ((c : Thread nD τ).loc main_arg2)
abbrev b1Arr (c : Dev nD) : S1024.Idx → EReal := m ((c : Thread nD τ).loc main_arg3)
abbrev w2Arr (c : Dev nD) : S1024x2048.Idx → EReal := m ((c : Thread nD τ).loc main_arg4)
abbrev b2Arr (c : Dev nD) : S1024.Idx → EReal := m ((c : Thread nD τ).loc main_arg5)

/-! ## What the operations before the launch leave in the arrays the launch reads -/

/-- The values' leading part is the values. -/
theorem lead_eq (c : Dev nD) (i : S8x1024x1024.Idx) :
    (V m c main_v5 i : EReal) = vArr m c i := by
  have e : (V m c main_v5 : S8x1024x1024.Idx → EReal)
      = (truncf .bf16 (m ((c : Thread nD τ).loc main_arg1)) bitsLt_bf16_f32 : FVec Ideal S8x1024x1024 .bf16) := by
    dsimp only [V, hostOps0]; after_results
  exact congrFun e i

/-- The values' residual is the values less themselves. -/
theorem resid_eq (c : Dev nD) (i : S8x1024x1024.Idx) :
    (V m c main_v8 i : EReal) = vArr m c i - vArr m c i := by
  have e : (V m c main_v8 : S8x1024x1024.Idx → EReal)
      = (truncf .bf16 (subf (m ((c : Thread nD τ).loc main_arg1))
          (extf .f32 (truncf .bf16 (m ((c : Thread nD τ).loc main_arg1)) bitsLt_bf16_f32 : FVec Ideal S8x1024x1024 .bf16) bitsLt_bf16_f32 : FVec Ideal S8x1024x1024 .f32))
          bitsLt_bf16_f32 : FVec Ideal S8x1024x1024 .bf16) := by
    dsimp only [V, hostOps0]; after_results
  exact congrFun e i

/-- The first weight matrix passes through its change of format. -/
theorem w1_eq (c : Dev nD) (i : S1024x1024.Idx) :
    (V m c main_v0 i : EReal) = w1Arr m c i := by
  have e : (V m c main_v0 : S1024x1024.Idx → EReal)
      = (truncf .bf16 (m ((c : Thread nD τ).loc main_arg2)) bitsLt_bf16_f32 : FVec Ideal S1024x1024 .bf16) := by
    dsimp only [V, hostOps0]; after_results
  exact congrFun e i

/-- The left half of the second weight matrix: its columns 0 … 1023. -/
theorem w2l_eq (c : Dev nD) (o f : Fin 1024) :
    (V m c main_v2 (ix2 o f) : EReal) = w2Arr m c (ix2 o (colL f)) := by
  have e : (V m c main_v2 : S1024x1024.Idx → EReal)
      = (truncf .bf16 (extractStridedSlice S1024x1024 ![0, 0] (m ((c : Thread nD τ).loc main_arg4)) slices_S1024x2048_S1024x1024_0_0 : FVec Ideal S1024x1024 .f32)
          bitsLt_bf16_f32 : FVec Ideal S1024x1024 .bf16) := by
    dsimp only [V, hostOps0]; after_results
  rw [e]
  exact slice2_axis1_apply 0 (w2Arr m c) slices_S1024x2048_S1024x1024_0_0 o f (colL f) (by show f.val = 0 + f.val; omega)

/-- The right half: its columns 1024 … 2047. -/
theorem w2r_eq (c : Dev nD) (o f : Fin 1024) :
    (V m c main_v4 (ix2 o f) : EReal) = w2Arr m c (ix2 o (colR f)) := by
  have e : (V m c main_v4 : S1024x1024.Idx → EReal)
      = (truncf .bf16 (extractStridedSlice S1024x1024 ![0, 1024] (m ((c : Thread nD τ).loc main_arg4)) slices_S1024x2048_S1024x1024_0_1024 : FVec Ideal S1024x1024 .f32)
          bitsLt_bf16_f32 : FVec Ideal S1024x1024 .bf16) := by
    dsimp only [V, hostOps0]; after_results
  rw [e]
  exact slice2_axis1_apply 1024 (w2Arr m c) slices_S1024x2048_S1024x1024_0_1024 o f (colR f) rfl

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Decided over the sixteen points: the query's block moves with the output's on the batch and row axes, the two
    value blocks with it on the batch axis only, every other block index is zero, and the output's block indices stay
    inside the 8 × 2 × 1 box of blocks. -/
theorem idx_facts : ∀ t : Fin cfg0.N,
    win0_0.index t (0 : Fin 3) = win0_8.index t (0 : Fin 3) ∧ win0_0.index t (1 : Fin 3) = win0_8.index t (1 : Fin 3) ∧ win0_0.index t (2 : Fin 3) = 0
    ∧ win0_1.index t (0 : Fin 3) = win0_8.index t (0 : Fin 3) ∧ win0_1.index t (1 : Fin 3) = 0 ∧ win0_1.index t (2 : Fin 3) = 0
    ∧ win0_2.index t (0 : Fin 3) = win0_8.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (2 : Fin 3) = 0 ∧ win0_8.index t (0 : Fin 3) ≤ 7 ∧ win0_8.index t (1 : Fin 3) ≤ 1 :=
  (by decide +kernel : ∀ t : Fin grid0.N, _)

/-- Every block of the 8 × 2 box is some point's. -/
theorem idx_onto : ∀ (q0 : Fin 8) (q1 : Fin 2), ∃ t : Fin cfg0.N, win0_8.index t = ![q0.val, q1.val, 0] :=
  (by decide +kernel : ∀ (q0 : Fin 8) (q1 : Fin 2), ∃ t : Fin grid0.N, win0_8.index t = ![q0.val, q1.val, 0])

/-! ## The blocks a point reads, as restrictions of the argument arrays -/

section Blocks

variable (c : Dev nD) (t : Fin cfg0.N) (bb : Fin 8) (hb : bb.val = win0_8.index t (0 : Fin 3))
include hb

/-- Row `r` of the query block at a point is row `512·h + r` of the point's batch of the query. -/
theorem query_blk (r : Fin 512) (tt : Fin 1024) (ht : tt.val = win0_8.index t (1 : Fin 3) * 512 + r.val) (d : Fin 1024) :
    (iblk m c 0 t (ix3 (0 : Fin 1) r d) : EReal) = qArr m c (ix3 bb tt d) := by
  obtain ⟨e0, e1, e2, -⟩ := idx_facts t
  show V m c main_arg0 (((cfg0.win 0).blk t).view.emb (ix3 (0 : Fin 1) r d)) = _
  rw [V_main_arg0]
  refine congrArg _ (funext fun a => Fin.ext ?_)
  match a with
  | ⟨0, _⟩ => show win0_0.index t (0 : Fin 3) * 1 + 1 * 0 = bb.val; omega
  | ⟨1, _⟩ => show win0_0.index t (1 : Fin 3) * 512 + 1 * r.val = tt.val; omega
  | ⟨2, _⟩ => show win0_0.index t (2 : Fin 3) * 1024 + 1 * d.val = d.val; omega

/-- The leading-part block is the point's batch of the values. -/
theorem lead_blk (k d : Fin 1024) :
    (iblk m c 1 t (ix3 (0 : Fin 1) k d) : EReal) = vArr m c (ix3 bb k d) := by
  obtain ⟨-, -, -, e0, e1, e2, -⟩ := idx_facts t
  show V m c main_v5 (((cfg0.win 1).blk t).view.emb (ix3 (0 : Fin 1) k d)) = _
  rw [lead_eq]
  refine congrArg _ (funext fun a => Fin.ext ?_)
  match a with
  | ⟨0, _⟩ => show win0_1.index t (0 : Fin 3) * 1 + 1 * 0 = bb.val; omega
  | ⟨1, _⟩ => show win0_1.index t (1 : Fin 3) * 1024 + 1 * k.val = k.val; omega
  | ⟨2, _⟩ => show win0_1.index t (2 : Fin 3) * 1024 + 1 * d.val = d.val; omega

/-- The residual block is the point's batch of the values less itself. -/
theorem resid_blk (k d : Fin 1024) :
    (iblk m c 2 t (ix3 (0 : Fin 1) k d) : EReal)
      = vArr m c (ix3 bb k d) - vArr m c (ix3 bb k d) := by
  obtain ⟨-, -, -, -, -, -, e0, e1, e2, -⟩ := idx_facts t
  show V m c main_v8 (((cfg0.win 2).blk t).view.emb (ix3 (0 : Fin 1) k d)) = _
  rw [resid_eq]
  have e : ((cfg0.win 2).blk t).view.emb (ix3 (0 : Fin 1) k d) = ix3 bb k d := funext fun a => Fin.ext (by
    match a with
    | ⟨0, _⟩ => show win0_2.index t (0 : Fin 3) * 1 + 1 * 0 = bb.val; omega
    | ⟨1, _⟩ => show win0_2.index t (1 : Fin 3) * 1024 + 1 * k.val = k.val; omega
    | ⟨2, _⟩ => show win0_2.index t (2 : Fin 3) * 1024 + 1 * d.val = d.val; omega)
  rw [e]

end Blocks

section Whole

variable (c : Dev nD) (t : Fin cfg0.N)

/-- The weights and biases are read whole at every point. -/
theorem w1_blk (v d : Fin 1024) : (iblk m c 3 t (ix2 v d) : EReal) = w1Arr m c (ix2 v d) := by
  obtain ⟨-, -, -, -, -, -, -, -, -, e0, e1, -⟩ := idx_facts t
  show V m c main_v0 (((cfg0.win 3).blk t).view.emb (ix2 v d)) = _
  rw [w1_eq]
  refine congrArg _ (funext fun a => Fin.ext ?_)
  match a with
  | ⟨0, _⟩ => show win0_3.index t (0 : Fin 2) * 1024 + 1 * v.val = v.val; omega
  | ⟨1, _⟩ => show win0_3.index t (1 : Fin 2) * 1024 + 1 * d.val = d.val; omega

theorem b1_blk (v : Fin 1024) : (iblk m c 4 t (ix1 v) : EReal) = b1Arr m c (ix1 v) := by
  obtain ⟨-, -, -, -, -, -, -, -, -, -, -, e0, -⟩ := idx_facts t
  show V m c main_arg3 (((cfg0.win 4).blk t).view.emb (ix1 v)) = _
  rw [V_main_arg3]
  refine congrArg _ (funext fun a => Fin.ext ?_)
  match a with
  | ⟨0, _⟩ => show win0_4.index t (0 : Fin 1) * 1024 + 1 * v.val = v.val; omega

theorem w2l_blk (o f : Fin 1024) : (iblk m c 5 t (ix2 o f) : EReal) = w2Arr m c (ix2 o (colL f)) := by
  obtain ⟨-, -, -, -, -, -, -, -, -, -, -, -, e0, e1, -⟩ := idx_facts t
  show V m c main_v2 (((cfg0.win 5).blk t).view.emb (ix2 o f)) = _
  have e : ((cfg0.win 5).blk t).view.emb (ix2 o f) = ix2 o f := funext fun a => Fin.ext (by
    match a with
    | ⟨0, _⟩ => show win0_5.index t (0 : Fin 2) * 1024 + 1 * o.val = o.val; omega
    | ⟨1, _⟩ => show win0_5.index t (1 : Fin 2) * 1024 + 1 * f.val = f.val; omega)
  rw [e, w2l_eq]

theorem w2r_blk (o f : Fin 1024) : (iblk m c 6 t (ix2 o f) : EReal) = w2Arr m c (ix2 o (colR f)) := by
  obtain ⟨-, -, -, -, -, -, -, -, -, -, -, -, -, -, e0, e1, -⟩ := idx_facts t
  show V m c main_v4 (((cfg0.win 6).blk t).view.emb (ix2 o f)) = _
  have e : ((cfg0.win 6).blk t).view.emb (ix2 o f) = ix2 o f := funext fun a => Fin.ext (by
    match a with
    | ⟨0, _⟩ => show win0_6.index t (0 : Fin 2) * 1024 + 1 * o.val = o.val; omega
    | ⟨1, _⟩ => show win0_6.index t (1 : Fin 2) * 1024 + 1 * f.val = f.val; omega)
  rw [e, w2r_eq]

theorem b2_blk (o : Fin 1024) : (iblk m c 7 t (ix1 o) : EReal) = b2Arr m c (ix1 o) := by
  obtain ⟨-, -, -, -, -, -, -, -, -, -, -, -, -, -, -, -, e0, -⟩ := idx_facts t
  show V m c main_arg5 (((cfg0.win 7).blk t).view.emb (ix1 o)) = _
  rw [V_main_arg5]
  refine congrArg _ (funext fun a => Fin.ext ?_)
  match a with
  | ⟨0, _⟩ => show win0_7.index t (0 : Fin 1) * 1024 + 1 * o.val = o.val; omega

end Whole

/-! ## What a point writes back, the cover, the whole array -/

/-- The launch's inputs are finite on core `c`: every entry of the query, the values, the first weight matrix and the
    first bias is a real number (the four arrays the kernel's residual terms are built from). -/
def FiniteIn (c : Dev nD) : Prop :=
  (∀ i, IsReal (qArr m c i)) ∧ (∀ i, IsReal (vArr m c i)) ∧ (∀ i, IsReal (w1Arr m c i)) ∧ (∀ i, IsReal (b1Arr m c i))

/-- The specification's result of core `c`'s argument arrays. -/
abbrev resultOf (c : Dev nD) : S8x1024x1024.Idx → EReal :=
  result (qArr m c) (vArr m c) (w1Arr m c) (b1Arr m c) (w2Arr m c) (b2Arr m c)

/-- WHAT POINT `t` WRITES BACK is block `t` of the specification's result, on finite inputs: the body's row is the
    kernel-shaped row of the blocks the point reads, those blocks are restrictions of the argument arrays, and the
    residual terms vanish. -/
theorem flushed_eq (c : Dev nD) (hfin : FiniteIn m c) (t : Fin cfg0.N) :
    (dats m 0 c).flushed 8 t = ((cfg0.win 8).blk t).view.read (Elt Ideal) (resultOf m c) := by
  rw [Cert.KernelIdeal.Value.flushed8]
  unfold out0_8
  rw [View.canon_unit_zero hz3]
  simp only [View.ld_unit_zero (S := S1x512x1024) hz3, View.ld_unit_zero (S := S1x1024x1024) hz3,
    View.ld_unit_zero (S := S1024x1024) hz2, View.ld_unit_zero (S := S1024) hz1]
  obtain ⟨hq, hv, hw, hb1⟩ := hfin
  have hf := idx_facts t
  funext y
  obtain ⟨u, r, o, rfl⟩ : ∃ (u : Fin 1) (r : Fin 512) (o : Fin 1024), y = ix3 u r o := ⟨y 0, y 1, y 2, eq_ix3 y⟩
  have hu : u.val = 0 := by omega
  have hr : r.val < 512 := r.isLt
  -- the array index of the block's entry (u, r, o): batch, row 512·h + r, column o
  let bb : Fin 8 := ⟨win0_8.index t (0 : Fin 3), by omega⟩
  let tt : Fin 1024 := ⟨win0_8.index t (1 : Fin 3) * 512 + r.val, by omega⟩
  have eemb : ((cfg0.win 8).blk t).view.emb (ix3 u r o) = ix3 bb tt o := funext fun a => Fin.ext (by
    match a with
    | ⟨0, _⟩ => show win0_8.index t (0 : Fin 3) * 1 + 1 * u.val = win0_8.index t (0 : Fin 3); omega
    | ⟨1, _⟩ => show win0_8.index t (1 : Fin 3) * 512 + 1 * r.val = win0_8.index t (1 : Fin 3) * 512 + r.val; omega
    | ⟨2, _⟩ => show win0_8.index t (2 : Fin 3) * 1024 + 1 * o.val = o.val; omega)
  show k0_pay1 (k0_pay2 (iblk m c 0 t)) (k0_pay3 (iblk m c 0 t) (iblk m c 1 t) (iblk m c 2 t) (iblk m c 3 t) (iblk m c 4 t))
      (iblk m c 5 t) (iblk m c 6 t) (iblk m c 7 t) (ix3 u r o)
    = resultOf m c (((cfg0.win 8).blk t).view.emb (ix3 u r o))
  rw [eemb]
  refine (KernelBody.body_apply (iblk m c 0 t) (iblk m c 1 t) (iblk m c 2 t) (iblk m c 3 t) (iblk m c 4 t)
    (iblk m c 5 t) (iblk m c 6 t) (iblk m c 7 t) u r o).trans ?_
  show _ = entry (qArr m c) (vArr m c) (w1Arr m c) (b1Arr m c) (w2Arr m c) (b2Arr m c) bb tt o
  unfold entry
  exact congrFun (rowKer_eq_rowRef
    (fun d => query_blk m c t bb rfl r tt rfl d)
    (fun k d => lead_blk m c t bb rfl k d)
    (fun k d => resid_blk m c t bb rfl k d)
    (fun v d => w1_blk m c t v d)
    (fun v => b1_blk m c t v)
    (fun o f => w2l_blk m c t o f)
    (fun o f => w2r_blk m c t o f)
    (fun o => b2_blk m c t o)
    (fun d => hq _) (fun k d => hv _) (fun v d => hw _) (fun v => hb1 _)) o

/-- An index of the result is in point `t`'s block iff each coordinate is in the block's range on its axis. -/
theorem mem_blk (t : Fin cfg0.N) (i : S8x1024x1024.Idx) :
    i ∈ ((cfg0.win 8).blk t).view.set ↔ ∀ a : Fin 3, win0_8.index t a * S1x512x1024.size a ≤ (i a).val ∧ (i a).val < win0_8.index t a * S1x512x1024.size a + S1x512x1024.size a := by
  show i ∈ ((View.whole main_v9).slice (win0_8.rect t)).set ↔ _
  rw [View.set_slice_whole, Rect.mem_set_unit]
  exact Iff.rfl

/-- The sixteen blocks tile the result: entry (b, s, o) is in the block of the point (b, s / 512). -/
theorem cover (i : S8x1024x1024.Idx) :
    ∃ t : Fin cfg0.N, (cfg0.win 8).flush t = true ∧ i ∈ ((cfg0.win 8).blk t).view.set := by
  have hi0 : (i 0).val < 8 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩
  have q0 : win0_8.index t (0 : Fin 3) = (i 0).val := congrFun ht 0
  have q1 : win0_8.index t (1 : Fin 3) = (i 1).val / 512 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

/-- THE RESULT ARRAY after the run, on finite inputs: the specification's result of the argument arrays. -/
theorem final (c : Dev nD) (hfin : FiniteIn m c) : (dats m 0 c).arrAt 8 cfg0.N = resultOf m c :=
  (dats m 0 c).arrAt_eq_of_cover 8 (resultOf m c) (fun t _ => flushed_eq m c hfin t) cover

/-- The kernel's run, read: on finite inputs every weakly fair execution ends with the result array at the
    specification's result of the arguments, the arguments unchanged. -/
theorem run (hfin : ∀ c, FiniteIn m c) :
    θ_run defs (onTc (τ := τ) (main (F := Ideal))) ⟨m, fun _ => 0, ρ⟩ fun r => ∀ c : Dev nD,
      r.2.mem ((c : Thread nD τ).loc main_v9) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hfin c)), (h c).2⟩)
    (Cert.KernelIdeal.Value.run_blocks m ρ)

end Cert.Attn.KernelValue

end
-- ==== Proof.lean ====
/-
  The kernel and the reference compute one function of their six arguments, on finite inputs, over the extended reals.

  Both are: project each query row by the first weight matrix and bias; score it against every key of its batch;
  take the softmax over the keys (exponentials of the scores less the row's maximum, over their sum); average the
  values with those weights; apply the second weight matrix to the attended row joined with the query row, add the
  second bias, take tanh. The reference joins the two rows and contracts 2048 columns at once; the kernel contracts
  the two halves of the matrix separately and adds: the same sum, split at column 1024.

  The one place the two differ is the scores. The kernel splits the values into a leading part and a residual, and the
  projected row likewise, and adds three products. Over the extended reals a change of float format is the identity,
  so the leading parts are the operands themselves and each residual is `x − x`: zero when `x` is finite, but `⊥` at
  an infinity. This is where the precondition (every input finite) is used: it makes the values and the projected rows
  real numbers, the two residual products vanish, and the kernel's scores are the reference's (Spec.lean).

  Spec.lean states the function (`result`); RefValue.lean reads the reference's run at an index and finds it;
  KernelBody.lean reads the kernel body's arithmetic at an index; KernelValue.lean carries it from the blocks a grid
  point handles to the whole array; Finite.lean turns the precondition into "every entry is a real number".
  The one entry of the idealization's ledger says that widening after narrowing is the identity on the extended
  reals, which holds by definition.
-/
import proofs.«413455_j7773890806016_3_alg».proof.Defs
import proofs.«413455_j7773890806016_3_alg».proof.Proof.Gen.Kernel
import proofs.«413455_j7773890806016_3_alg».proof.Proof.Gen.Kernel.Skeleton
import proofs.«413455_j7773890806016_3_alg».proof.Proof.Gen.Kernel.Launch
import proofs.«413455_j7773890806016_3_alg».proof.Proof.Gen.Kernel.Points
import proofs.«413455_j7773890806016_3_alg».proof.Proof.Gen.Kernel.Frame
import proofs.«413455_j7773890806016_3_alg».proof.Proof.Gen.KernelIdeal
import proofs.«413455_j7773890806016_3_alg».proof.Proof.Gen.KernelIdeal.Skeleton
import proofs.«413455_j7773890806016_3_alg».proof.Proof.Gen.KernelIdeal.Launch
import proofs.«413455_j7773890806016_3_alg».proof.Proof.Gen.KernelIdeal.Points
import proofs.«413455_j7773890806016_3_alg».proof.Proof.Gen.KernelIdeal.Frame
import proofs.«413455_j7773890806016_3_alg».proof.Proof.Gen.ReferenceIdeal
import proofs.«413455_j7773890806016_3_alg».proof.Proof.Gen.Pre_finite_inputs
import proofs.«413455_j7773890806016_3_alg».proof.Proof.Gen.KernelIdeal.Value
import proofs.«413455_j7773890806016_3_alg».proof.Proof.Gen.ReferenceIdeal.Run
import proofs.«413455_j7773890806016_3_alg».proof.Proof.Gen.ReferenceIdeal.Read
import proofs.«413455_j7773890806016_3_alg».proof.Proof.Spec
import proofs.«413455_j7773890806016_3_alg».proof.Proof.Finite
import proofs.«413455_j7773890806016_3_alg».proof.Proof.RefValue
import proofs.«413455_j7773890806016_3_alg».proof.Proof.KernelBody
import proofs.«413455_j7773890806016_3_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Widening a narrowed block of projected rows gives the block back, over the extended reals. -/
theorem preserves : Cert.preserves_Kernel_KernelIdeal :=
  IdealRules.truncf_extf.statement Cert.KernelIdeal.S512x1024 .f32 .bf16

/-- On finite inputs that agree, both programs end with the specification's result of the arguments. -/
theorem algebraic : Cert.algebraic_KernelIdeal_ReferenceIdeal := by
  intro m ρ m' ρ' hpre hagree
  have hfin : ∀ c, Cert.Attn.KernelValue.FiniteIn m c := fun c => Cert.Attn.real_of_pre _ _ _ _ _ _ (hpre c)
  refine ⟨fun c => Cert.Attn.KernelValue.resultOf m c, Cert.Attn.KernelValue.run m ρ hfin, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v22_eq, Cert.Attn.RefValue.ref_eq_result, h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
